-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x19 : Shape := ⟨2, ![2097152, 19]⟩
abbrev S32x64 : Shape := ⟨2, ![32, 64]⟩
abbrev S64x64 : Shape := ⟨2, ![64, 64]⟩
abbrev S64x3 : Shape := ⟨2, ![64, 3]⟩
abbrev S_ : Shape := ⟨0, ![]⟩

class Facts : Prop where
  bcast_S_S2097152x19 : S_.BroadcastsInDim S2097152x19 (![] : Fin 0 → Fin S2097152x19.rank)
  reducesTo_S2097152x19_S_d0_1 : S2097152x19.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64x64 : S_.BroadcastsInDim S64x64 (![] : Fin 0 → Fin S64x64.rank)
  reducesTo_S64x64_S_d0_1 : S64x64.ReducesTo [0, 1] S_
  bcast_S_S64x3 : S_.BroadcastsInDim S64x3 (![] : Fin 0 → Fin S64x3.rank)
  reducesTo_S64x3_S_d0_1 : S64x3.ReducesTo [0, 1] S_

variable [Facts]

def fn_part1 {F : FTy → Type} [FloatOps F] (main_v13 : IVec S_ 1) (main_v16 : IVec S64x3 1) : IVec S_ 1 :=
  let main_c_5 : IVec S_ 1 := constantI S_ 1 1#1
  let main_v17 : IVec S_ 1 := (fun x v => Host.reduce IntOp.andi x v reducesTo_S64x3_S_d0_1 h_S_) main_v16 main_c_5
  let main_v18 : IVec S_ 1 := andi main_v13 main_v17
  main_v18

def fn {F : FTy → Type} [FloatOps F] (main_arg0 : FVec F S2097152x19 .f32) (main_arg1 : FVec F S32x64 .f32) (main_arg2 : FVec F S64x64 .f32) (main_arg3 : FVec F S64x3 .f32) : IVec S_ 1 :=
  let main_v0 : FVec F S2097152x19 .f32 := Host.absf main_arg0
  let main_cst : FVec F S_ .f32 := constant S_ .f32 0x7F800000#32
  let main_v1 : FVec F S2097152x19 .f32 := broadcastInDim S2097152x19 ![] bcast_S_S2097152x19 main_cst
  let main_v2 : IVec S2097152x19 1 := cmpf .olt main_v0 main_v1
  let main_c : IVec S_ 1 := constantI S_ 1 1#1
  let main_v3 : IVec S_ 1 := (fun x v => Host.reduce IntOp.andi x v reducesTo_S2097152x19_S_d0_1 h_S_) main_v2 main_c
  let main_v4 : FVec F S32x64 .f32 := Host.absf main_arg1
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x3 .f32 := Host.absf main_arg3
  let main_cst_4 : FVec F S_ .f32 := constant S_ .f32 0x7F800000#32
  let main_v15 : FVec F S64x3 .f32 := broadcastInDim S64x3 ![] bcast_S_S64x3 main_cst_4
  let main_v16 : IVec S64x3 1 := cmpf .olt main_v14 main_v15
  fn_part1 (F := F) main_v13 main_v16
-- ==== Kernel.lean ====
abbrev S2097152x19 : Shape := ⟨2, ![2097152, 19]⟩
abbrev S32x64 : Shape := ⟨2, ![32, 64]⟩
abbrev S64x64 : Shape := ⟨2, ![64, 64]⟩
abbrev S64x3 : Shape := ⟨2, ![64, 3]⟩
abbrev S2097152x3 : Shape := ⟨2, ![2097152, 3]⟩
abbrev S4096x19 : Shape := ⟨2, ![4096, 19]⟩
abbrev S4096x3 : Shape := ⟨2, ![4096, 3]⟩
abbrev S4096x16 : Shape := ⟨2, ![4096, 16]⟩
abbrev S4096x1 : Shape := ⟨2, ![4096, 1]⟩
abbrev S4096 : Shape := ⟨1, ![4096]⟩
abbrev S4096x32 : Shape := ⟨2, ![4096, 32]⟩
abbrev S4096x64 : Shape := ⟨2, ![4096, 64]⟩

abbrev nBuf : Space → Nat
  | .hbm => 5
  | .vmem => 7
  | .smem => 0
  | _ => 0

abbrev bufTy : (tb : Table) → Fin (tcTables nBuf tb) → BufTy
  | .hbm, ⟨0, _⟩ => ⟨S2097152x19, .f32⟩
  | .hbm, ⟨1, _⟩ => ⟨S32x64, .f32⟩
  | .hbm, ⟨2, _⟩ => ⟨S64x64, .f32⟩
  | .hbm, ⟨3, _⟩ => ⟨S64x3, .f32⟩
  | .hbm, ⟨4, _⟩ => ⟨S2097152x3, .f32⟩
  | .local _ .vmem, ⟨0, _⟩ => ⟨S4096x19, .f32⟩
  | .local _ .vmem, ⟨1, _⟩ => ⟨S4096x19, .f32⟩
  | .local _ .vmem, ⟨2, _⟩ => ⟨S32x64, .f32⟩
  | .local _ .vmem, ⟨3, _⟩ => ⟨S64x64, .f32⟩
  | .local _ .vmem, ⟨4, _⟩ => ⟨S64x3, .f32⟩
  | .local _ .vmem, ⟨5, _⟩ => ⟨S4096x3, .f32⟩
  | .local _ .vmem, ⟨6, _⟩ => ⟨S4096x3, .f32⟩
  | _, _ => ⟨S2097152x19, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x19 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S4096x19_S4096x19_0_0 : ∀ a, (![0, 0] : Fin 2 → Nat) a + S4096x19.size a ≤ S4096x19.size a
  h_S4096x19 : 0 < S4096x19.numel
  slices_S4096x19_o0_0_S4096x3 : S4096x19.Slices ![0, 0] S4096x3
  slices_S4096x19_o0_3_S4096x16 : S4096x19.Slices ![0, 3] S4096x16
  slices_S4096x3_o0_0_S4096x1 : S4096x3.Slices ![0, 0] S4096x1
  shapeCasts_S4096x1_S4096 : S4096x1.ShapeCasts S4096
  slices_S4096x3_o0_1_S4096x1 : S4096x3.Slices ![0, 1] S4096x1
  slices_S4096x3_o0_2_S4096x1 : S4096x3.Slices ![0, 2] S4096x1
  shapeCasts_S4096_S4096x1 : S4096.ShapeCasts S4096x1
  concatenates_S4096x1_S4096x1_S4096x1_S4096x1_S4096x1_S4096x1_S4096x1_S4096x1_S4096x1_S4096x1_S4096x1_S4096x1_S4096x1_S4096x1_S4096x1_S4096x1_S4096x16_d1 : Shape.Concatenates [S4096x1, S4096x1, S4096x1, S4096x1, S4096x1, S4096x1, S4096x1, S4096x1, S4096x1, S4096x1, S4096x1, S4096x1, S4096x1, S4096x1, S4096x1, S4096x1] S4096x16 1
  concatenates_S4096x16_S4096x16_S4096x32_d1 : Shape.Concatenates [S4096x16, S4096x16] S4096x32 1
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S64x64_S64x64_0_0 : ∀ a, (![0, 0] : Fin 2 → Nat) a + S64x64.size a ≤ S64x64.size a
  h_S64x64 : 0 < S64x64.numel
  inb_S64x3_S64x3_0_0 : ∀ a, (![0, 0] : Fin 2 → Nat) a + S64x3.size a ≤ S64x3.size a
  h_S64x3 : 0 < S64x3.numel
  inb_S4096x3_S4096x3_0_0 : ∀ a, (![0, 0] : Fin 2 → Nat) a + S4096x3.size a ≤ S4096x3.size a
  h_S4096x3 : 0 < S4096x3.numel
  dot_S4096x32_S32x64_S4096x64_1_0_0_1_n_n_wf : DotDims.WF S4096x32 S32x64 S4096x64 [1] [0] [0] [1] [] []
  dot_S4096x64_S64x64_S4096x64_1_0_0_1_n_n_wf : DotDims.WF S4096x64 S64x64 S4096x64 [1] [0] [0] [1] [] []
  dot_S4096x64_S64x3_S4096x3_1_0_0_1_n_n_wf : DotDims.WF S4096x64 S64x3 S4096x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x19.size a ≤ S2097152x19.size a
  hwx0_0 : ∀ i : grid0.Coords, EltTy.bits .f32 = 32 ∨ (Rect.block (s := S2097152x19) S4096x19.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x3.size a ≤ S64x3.size a
  hwx0_3 : ∀ i : grid0.Coords, EltTy.bits .f32 = 32 ∨ (Rect.block (s := S64x3) S64x3.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x3.size a ≤ S2097152x3.size a
  hwx0_4 : ∀ i : grid0.Coords, EltTy.bits .f32 = 32 ∨ (Rect.block (s := S2097152x3) S4096x3.size (cc0_transform_4 i) (hinb0_4 i)).WholeWords (EltTy.packing .f32)

variable [Facts₀]

def dot_S4096x32_S32x64_S4096x64_1_0_0_1_n_n : DotDims S4096x32 S32x64 S4096x64 where
  lhsContracting := [1]
  rhsContracting := [0]
  lhsNonContracting := [0]
  rhsNonContracting := [1]
  lhsBatch := []
  rhsBatch := []
  wf := dot_S4096x32_S32x64_S4096x64_1_0_0_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x64_S64x3_S4096x3_1_0_0_1_n_n : DotDims S4096x64 S64x3 S4096x3 where
  lhsContracting := [1]
  rhsContracting := [0]
  lhsNonContracting := [0]
  rhsNonContracting := [1]
  lhsBatch := []
  rhsBatch := []
  wf := dot_S4096x64_S64x3_S4096x3_1_0_0_1_n_n_wf

abbrev win0_0 : Pipeline.Window sig grid0 :=
  Pipeline.Window.ofSpec (Memref.whole main_arg0) S4096x19.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x3.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S4096x3.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2097152x19 : Shape := ⟨2, ![2097152, 19]⟩
abbrev S32x64 : Shape := ⟨2, ![32, 64]⟩
abbrev S64x64 : Shape := ⟨2, ![64, 64]⟩
abbrev S64x3 : Shape := ⟨2, ![64, 3]⟩
abbrev S2097152x3 : Shape := ⟨2, ![2097152, 3]⟩
abbrev S_ : Shape := ⟨0, ![]⟩
abbrev S2097152x1 : Shape := ⟨2, ![2097152, 1]⟩
abbrev S2097152 : Shape := ⟨1, ![2097152]⟩
abbrev S2097152x16 : Shape := ⟨2, ![2097152, 16]⟩
abbrev S2097152x32 : Shape := ⟨2, ![2097152, 32]⟩
abbrev S2097152x64 : Shape := ⟨2, ![2097152, 64]⟩

abbrev nBuf : Space → Nat
  | .hbm => 136
  | .vmem => 0
  | .smem => 0
  | _ => 0

abbrev hbmTy0_0 (i : Nat) : BufTy := match i % 128 with
  | 0 => ⟨S2097152x19, .f32⟩
  | 1 => ⟨S32x64, .f32⟩
  | 2 => ⟨S64x64, .f32⟩
  | 3 => ⟨S64x3, .f32⟩
  | 4 => ⟨S2097152x3, .f32⟩
  | 5 => ⟨S_, .f32⟩
  | 6 => ⟨S2097152x3, .f32⟩
  | 7 => ⟨S2097152x3, .f32⟩
  | 8 => ⟨S_, .f32⟩
  | 9 => ⟨S2097152x3, .f32⟩
  | 10 => ⟨S2097152x3, .f32⟩
  | 11 => ⟨S2097152x1, .f32⟩
  | 12 => ⟨S2097152, .f32⟩
  | 13 => ⟨S2097152x1, .f32⟩
  | 14 => ⟨S2097152, .f32⟩
  | 15 => ⟨S2097152x1, .f32⟩
  | 16 => ⟨S2097152, .f32⟩
  | 17 => ⟨S2097152, .f32⟩
  | 18 => ⟨S2097152, .f32⟩
  | 19 => ⟨S2097152, .f32⟩
  | 20 => ⟨S2097152, .f32⟩
  | 21 => ⟨S2097152, .f32⟩
  | 22 => ⟨S2097152, .f32⟩
  | 23 => ⟨S_, .f32⟩
  | 24 => ⟨S2097152, .f32⟩
  | 25 => ⟨S_, .f32⟩
  | 26 => ⟨S2097152, .f32⟩
  | 27 => ⟨S2097152, .f32⟩
  | 28 => ⟨S_, .f32⟩
  | 29 => ⟨S2097152, .f32⟩
  | 30 => ⟨S2097152, .f32⟩
  | 31 => ⟨S_, .f32⟩
  | 32 => ⟨S2097152, .f32⟩
  | 33 => ⟨S2097152, .f32⟩
  | 34 => ⟨S_, .f32⟩
  | 35 => ⟨S2097152, .f32⟩
  | 36 => ⟨S2097152, .f32⟩
  | 37 => ⟨S_, .f32⟩
  | 38 => ⟨S2097152, .f32⟩
  | 39 => ⟨S2097152, .f32⟩
  | 40 => ⟨S_, .f32⟩
  | 41 => ⟨S2097152, .f32⟩
  | 42 => ⟨S2097152, .f32⟩
  | 43 => ⟨S_, .f32⟩
  | 44 => ⟨S2097152, .f32⟩
  | 45 => ⟨S2097152, .f32⟩
  | 46 => ⟨S_, .f32⟩
  | 47 => ⟨S2097152, .f32⟩
  | 48 => ⟨S2097152, .f32⟩
  | 49 => ⟨S2097152, .f32⟩
  | 50 => ⟨S_, .f32⟩
  | 51 => ⟨S2097152, .f32⟩
  | 52 => ⟨S2097152, .f32⟩
  | 53 => ⟨S_, .f32⟩
  | 54 => ⟨S2097152, .f32⟩
  | 55 => ⟨S2097152, .f32⟩
  | 56 => ⟨S_, .f32⟩
  | 57 => ⟨S2097152, .f32⟩
  | 58 => ⟨S2097152, .f32⟩
  | 59 => ⟨S2097152, .f32⟩
  | 60 => ⟨S2097152, .f32⟩
  | 61 => ⟨S_, .f32⟩
  | 62 => ⟨S2097152, .f32⟩
  | 63 => ⟨S2097152, .f32⟩
  | 64 => ⟨S2097152, .f32⟩
  | 65 => ⟨S_, .f32⟩
  | 66 => ⟨S2097152, .f32⟩
  | 67 => ⟨S2097152, .f32⟩
  | 68 => ⟨S_, .f32⟩
  | 69 => ⟨S2097152, .f32⟩
  | 70 => ⟨S2097152, .f32⟩
  | 71 => ⟨S_, .f32⟩
  | 72 => ⟨S2097152, .f32⟩
  | 73 => ⟨S2097152, .f32⟩
  | 74 => ⟨S2097152, .f32⟩
  | 75 => ⟨S_, .f32⟩
  | 76 => ⟨S2097152, .f32⟩
  | 77 => ⟨S2097152, .f32⟩
  | 78 => ⟨S_, .f32⟩
  | 79 => ⟨S2097152, .f32⟩
  | 80 => ⟨S2097152, .f32⟩
  | 81 => ⟨S_, .f32⟩
  | 82 => ⟨S2097152, .f32⟩
  | 83 => ⟨S2097152, .f32⟩
  | 84 => ⟨S2097152, .f32⟩
  | 85 => ⟨S_, .f32⟩
  | 86 => ⟨S2097152, .f32⟩
  | 87 => ⟨S2097152, .f32⟩
  | 88 => ⟨S_, .f32⟩
  | 89 => ⟨S2097152, .f32⟩
  | 90 => ⟨S2097152, .f32⟩
  | 91 => ⟨S_, .f32⟩
  | 92 => ⟨S2097152, .f32⟩
  | 93 => ⟨S2097152, .f32⟩
  | 94 => ⟨S2097152, .f32⟩
  | 95 => ⟨S_, .f32⟩
  | 96 => ⟨S2097152, .f32⟩
  | 97 => ⟨S2097152, .f32⟩
  | 98 => ⟨S2097152, .f32⟩
  | 99 => ⟨S2097152, .f32⟩
  | 100 => ⟨S_, .f32⟩
  | 101 => ⟨S2097152, .f32⟩
  | 102 => ⟨S2097152, .f32⟩
  | 103 => ⟨S_, .f32⟩
  | 104 => ⟨S2097152, .f32⟩
  | 105 => ⟨S2097152, .f32⟩
  | 106 => ⟨S2097152, .f32⟩
  | 107 => ⟨S2097152, .f32⟩
  | 108 => ⟨S2097152x1, .f32⟩
  | 109 => ⟨S2097152x1, .f32⟩
  | 110 => ⟨S2097152x1, .f32⟩
  | 111 => ⟨S2097152x1, .f32⟩
  | 112 => ⟨S2097152x1, .f32⟩
  | 113 => ⟨S2097152x1, .f32⟩
  | 114 => ⟨S2097152x1, .f32⟩
  | 115 => ⟨S2097152x1, .f32⟩
  | 116 => ⟨S2097152x1, .f32⟩
  | 117 => ⟨S2097152x1, .f32⟩
  | 118 => ⟨S2097152x1, .f32⟩
  | 119 => ⟨S2097152x1, .f32⟩
  | 120 => ⟨S2097152x1, .f32⟩
  | 121 => ⟨S2097152x1, .f32⟩
  | 122 => ⟨S2097152x1, .f32⟩
  | 123 => ⟨S2097152x1, .f32⟩
  | 124 => ⟨S2097152x16, .f32⟩
  | 125 => ⟨S2097152x16, .f32⟩
  | 126 => ⟨S2097152x32, .f32⟩
  | 127 => ⟨S2097152x64, .f32⟩
  | _ => ⟨S2097152x19, .f32⟩

abbrev hbmTy0_1 (i : Nat) : BufTy := match i % 128 with
  | 0 => ⟨S_, .f32⟩
  | 1 => ⟨S2097152x64, .f32⟩
  | 2 => ⟨S2097152x64, .f32⟩
  | 3 => ⟨S2097152x64, .f32⟩
  | 4 => ⟨S_, .f32⟩
  | 5 => ⟨S2097152x64, .f32⟩
  | 6 => ⟨S2097152x64, .f32⟩
  | 7 => ⟨S2097152x3, .f32⟩
  | _ => ⟨S2097152x19, .f32⟩

abbrev hbmTy (i : Nat) : BufTy := match i / 128 with
  | 0 => hbmTy0_0 i
  | 1 => hbmTy0_1 i
  | _ => ⟨S2097152x19, .f32⟩

abbrev bufTy : (tb : Table) → Fin (tcTables nBuf tb) → BufTy
  | .hbm, ⟨i, _⟩ => hbmTy i
  | _, _ => ⟨S2097152x19, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩
abbrev main_cst_9 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_10 : Ref sig .tc := ⟨.hbm, 50, rfl⟩
abbrev main_v35 : Ref sig .tc := ⟨.hbm, 51, rfl⟩
abbrev main_v36 : Ref sig .tc := ⟨.hbm, 52, rfl⟩
abbrev main_cst_11 : Ref sig .tc := ⟨.hbm, 53, rfl⟩
abbrev main_v37 : Ref sig .tc := ⟨.hbm, 54, rfl⟩
abbrev main_v38 : Ref sig .tc := ⟨.hbm, 55, rfl⟩
abbrev main_cst_12 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_13 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_14 : Ref sig .tc := ⟨.hbm, 65, rfl⟩
abbrev main_v46 : Ref sig .tc := ⟨.hbm, 66, rfl⟩
abbrev main_v47 : Ref sig .tc := ⟨.hbm, 67, rfl⟩
abbrev main_cst_15 : Ref sig .tc := ⟨.hbm, 68, rfl⟩
abbrev main_v48 : Ref sig .tc := ⟨.hbm, 69, rfl⟩
abbrev main_v49 : Ref sig .tc := ⟨.hbm, 70, rfl⟩
abbrev main_cst_16 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_17 : Ref sig .tc := ⟨.hbm, 75, rfl⟩
abbrev main_v53 : Ref sig .tc := ⟨.hbm, 76, rfl⟩
abbrev main_v54 : Ref sig .tc := ⟨.hbm, 77, rfl⟩
abbrev main_cst_18 : Ref sig .tc := ⟨.hbm, 78, rfl⟩
abbrev main_v55 : Ref sig .tc := ⟨.hbm, 79, rfl⟩
abbrev main_v56 : Ref sig .tc := ⟨.hbm, 80, rfl⟩
abbrev main_cst_19 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_20 : Ref sig .tc := ⟨.hbm, 85, rfl⟩
abbrev main_v60 : Ref sig .tc := ⟨.hbm, 86, rfl⟩
abbrev main_v61 : Ref sig .tc := ⟨.hbm, 87, rfl⟩
abbrev main_cst_21 : Ref sig .tc := ⟨.hbm, 88, rfl⟩
abbrev main_v62 : Ref sig .tc := ⟨.hbm, 89, rfl⟩
abbrev main_v63 : Ref sig .tc := ⟨.hbm, 90, rfl⟩
abbrev main_cst_22 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_23 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_24 : Ref sig .tc := ⟨.hbm, 100, rfl⟩
abbrev main_v71 : Ref sig .tc := ⟨.hbm, 101, rfl⟩
abbrev main_v72 : Ref sig .tc := ⟨.hbm, 102, rfl⟩
abbrev main_cst_25 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_call0_cst : Ref sig .tc := ⟨.hbm, 128, rfl⟩
abbrev main_call0_v0 : Ref sig .tc := ⟨.hbm, 129, rfl⟩
abbrev main_v97 : Ref sig .tc := ⟨.hbm, 130, rfl⟩
abbrev main_v98 : Ref sig .tc := ⟨.hbm, 131, rfl⟩
abbrev main_call1_cst : Ref sig .tc := ⟨.hbm, 132, rfl⟩
abbrev main_call1_v0 : Ref sig .tc := ⟨.hbm, 133, rfl⟩
abbrev main_v99 : Ref sig .tc := ⟨.hbm, 134, rfl⟩
abbrev main_v100 : Ref sig .tc := ⟨.hbm, 135, rfl⟩

abbrev nD : Nat := 1
abbrev τ : Topo := Topo.v7x

variable {F : FTy → Type} [FloatOps F]

class Facts₀ : Prop where
  slices_S2097152x19_S2097152x3_0_0 : S2097152x19.Slices ![0, 0] S2097152x3
  bcast_S_S2097152x3 : S_.BroadcastsInDim S2097152x3 (![] : Fin 0 → Fin S2097152x3.rank)
  slices_S2097152x3_S2097152x1_0_0 : S2097152x3.Slices ![0, 0] S2097152x1
  shapeCasts_S2097152x1_S2097152 : S2097152x1.ShapeCasts S2097152
  slices_S2097152x3_S2097152x1_0_1 : S2097152x3.Slices ![0, 1] S2097152x1
  slices_S2097152x3_S2097152x1_0_2 : S2097152x3.Slices ![0, 2] S2097152x1
  bcast_S_S2097152 : S_.BroadcastsInDim S2097152 (![] : Fin 0 → Fin S2097152.rank)
  bcast_S2097152_S2097152x1_0 : S2097152.BroadcastsInDim S2097152x1 (![0] : Fin 1 → Fin S2097152x1.rank)
  concatenates_S2097152x1_S2097152x1_S2097152x1_S2097152x1_S2097152x1_S2097152x1_S2097152x1_S2097152x1_S2097152x1_S2097152x1_S2097152x1_S2097152x1_S2097152x1_S2097152x1_S2097152x1_S2097152x1_S2097152x16_d1 : Shape.Concatenates [S2097152x1, S2097152x1, S2097152x1, S2097152x1, S2097152x1, S2097152x1, S2097152x1, S2097152x1, S2097152x1, S2097152x1, S2097152x1, S2097152x1, S2097152x1, S2097152x1, S2097152x1, S2097152x1] S2097152x16 1
  slices_S2097152x19_S2097152x16_0_3 : S2097152x19.Slices ![0, 3] S2097152x16
  concatenates_S2097152x16_S2097152x16_S2097152x32_d1 : Shape.Concatenates [S2097152x16, S2097152x16] S2097152x32 1
  bcast_S_S2097152x64 : S_.BroadcastsInDim S2097152x64 (![] : Fin 0 → Fin S2097152x64.rank)
  dot_S2097152x32_S32x64_S2097152x64_1_0_0_1_n_n_wf : DotDims.WF S2097152x32 S32x64 S2097152x64 [1] [0] [0] [1] [] []
  dot_S2097152x64_S64x64_S2097152x64_1_0_0_1_n_n_wf : DotDims.WF S2097152x64 S64x64 S2097152x64 [1] [0] [0] [1] [] []
  dot_S2097152x64_S64x3_S2097152x3_1_0_0_1_n_n_wf : DotDims.WF S2097152x64 S64x3 S2097152x3 [1] [0] [0] [1] [] []

variable [Facts₀]

def dot_S2097152x32_S32x64_S2097152x64_1_0_0_1_n_n : DotDims S2097152x32 S32x64 S2097152x64 where
  lhsContracting := [1]
  rhsContracting := [0]
  lhsNonContracting := [0]
  rhsNonContracting := [1]
  lhsBatch := []
  rhsBatch := []
  wf := dot_S2097152x32_S32x64_S2097152x64_1_0_0_1_n_n_wf
def dot_S2097152x64_S64x64_S2097152x64_1_0_0_1_n_n : DotDims S2097152x64 S64x64 S2097152x64 where
  lhsContracting := [1]
  rhsContracting := [0]
  lhsNonContracting := [0]
  rhsNonContracting := [1]
  lhsBatch := []
  rhsBatch := []
  wf := dot_S2097152x64_S64x64_S2097152x64_1_0_0_1_n_n_wf
def dot_S2097152x64_S64x3_S2097152x3_1_0_0_1_n_n : DotDims S2097152x64 S64x3 S2097152x3 where
  lhsContracting := [1]
  rhsContracting := [0]
  lhsNonContracting := [0]
  rhsNonContracting := [1]
  lhsBatch := []
  rhsBatch := []
  wf := dot_S2097152x64_S64x3_S2097152x3_1_0_0_1_n_n_wf

class Facts : Prop extends Facts₀ where

variable [Facts]
-- ==== Proof.Spec.lean ====
/-
  The network both programs compute, one input row at a time, over the extended reals.

  A row holds nineteen numbers. The first three are a point of the unit cube; each coordinate d is moved to
  2 d − 1, giving a direction (x, y, z), and the sixteen real spherical harmonics of degree below four are
  evaluated at it, each as the polynomial in x, y, z the source spells (the association of every product is the
  source's: a three-factor term is (c · u) · v). Those sixteen values followed by the row's other sixteen numbers
  are the thirty-two features. Three bias-free dense layers follow — 32 → 64 and 64 → 64, each followed by
  max (·, 0), then 64 → 3 — every one a plain sum over the contracted coordinate. The float literals are kept as
  their words: the same word stands on both sides, so none is ever evaluated.
-/
import Idealize.ShloMosaic.PureOps.Ideal
import Idealize.ShloMosaic.Lib.ValueIdx

noncomputable section

namespace Cert.ShMlp

open Idealize.ShloMosaic Idealize.ShloMosaic.ValueIdx
open scoped BigOperators

/-- The value of a 32-bit float literal. -/
abbrev lit (w : BitVec 32) : EReal := Ideal.ofBits .f32 w

/-- A cube coordinate d moved to 2 d − 1. -/
def comp (d : EReal) : EReal := d * lit 0x40000000#32 - lit 0x3F800000#32

/-- The sixteen harmonics at the direction (x, y, z), in the order the features are laid out. -/
def sh (x y z : EReal) : Fin 16 → EReal :=
  ![lit 0x3E906EBB#32,
    lit 0xBEFA2A1C#32 * y,
    lit 0x3EFA2A1C#32 * z,
    lit 0xBEFA2A1C#32 * x,
    lit 0x3F8BD8A1#32 * (x * y),
    lit 0xBF8BD8A1#32 * (y * z),
    lit 0x3F723881#32 * (z * z) - lit 0x3EA17B01#32,
    lit 0xBF8BD8A1#32 * (x * z),
    lit 0x3F0BD8A1#32 * (x * x - y * y),
    lit 0x3F170D19#32 * y * (lit 0xC0400000#32 * (x * x) + y * y),
    lit 0x4038FFC7#32 * (x * y) * z,
    lit 0x3EEA01E8#32 * y * (lit 0x3F800000#32 - lit 0x40A00000#32 * (z * z)),
    lit 0x3EBF10F8#32 * z * (lit 0x40A00000#32 * (z * z) - lit 0x40400000#32),
    lit 0x3EEA01E8#32 * x * (lit 0x3F800000#32 - lit 0x40A00000#32 * (z * z)),
    lit 0x3FB8FFC7#32 * z * (x * x - y * y),
    lit 0x3F170D19#32 * x * (x * x - lit 0x40400000#32 * (y * y))]

/-- The thirty-two features of a row: the harmonics of its first three entries, then entries 3 … 18 as they are. -/
def enc (row : Fin 19 → EReal) (k : Fin 32) : EReal :=
  if h : k.val < 16 then sh (comp (row 0)) (comp (row 1)) (comp (row 2)) ⟨k.val, h⟩
  else row ⟨k.val - 16 + 3, by have := k.isLt; omega⟩

/-- The first hidden layer: max (Σₖ enc k · W1 (k, j), 0). -/
def hid1 (row : Fin 19 → EReal) (W1 : (⟨2, ![32, 64]⟩ : Shape).Idx → EReal) (j : Fin 64) : EReal :=
  max (∑ k : Fin 32, enc row k * W1 (ix2 k j)) (lit 0x00000000#32)

/-- The second hidden layer: max (Σₖ hid1 k · W2 (k, j), 0). -/
def hid2 (row : Fin 19 → EReal) (W1 : (⟨2, ![32, 64]⟩ : Shape).Idx → EReal)
    (W2 : (⟨2, ![64, 64]⟩ : Shape).Idx → EReal) (j : Fin 64) : EReal :=
  max (∑ k : Fin 64, hid1 row W1 k * W2 (ix2 k j)) (lit 0x00000000#32)

/-- The output layer: Σₖ hid2 k · W3 (k, q), no rectifier. -/
def out (row : Fin 19 → EReal) (W1 : (⟨2, ![32, 64]⟩ : Shape).Idx → EReal)
    (W2 : (⟨2, ![64, 64]⟩ : Shape).Idx → EReal) (W3 : (⟨2, ![64, 3]⟩ : Shape).Idx → EReal) (q : Fin 3) : EReal :=
  ∑ k : Fin 64, hid2 row W1 W2 k * W3 (ix2 k q)

/-- The whole result array: entry (r, q) is the network's output q on row r of the input. -/
def G (x : (⟨2, ![2097152, 19]⟩ : Shape).Idx → EReal) (W1 : (⟨2, ![32, 64]⟩ : Shape).Idx → EReal)
    (W2 : (⟨2, ![64, 64]⟩ : Shape).Idx → EReal) (W3 : (⟨2, ![64, 3]⟩ : Shape).Idx → EReal) :
    (⟨2, ![2097152, 3]⟩ : Shape).Idx → EReal :=
  fun i => out (fun k => x (ix2 (i 0) k)) W1 W2 W3 (i 1)

theorem G_apply (x : (⟨2, ![2097152, 19]⟩ : Shape).Idx → EReal) (W1 : (⟨2, ![32, 64]⟩ : Shape).Idx → EReal)
    (W2 : (⟨2, ![64, 64]⟩ : Shape).Idx → EReal) (W3 : (⟨2, ![64, 3]⟩ : Shape).Idx → EReal)
    (r : Fin 2097152) (q : Fin 3) :
    G x W1 W2 W3 (ix2 r q) = out (fun k => x (ix2 r k)) W1 W2 W3 q := rfl

end Cert.ShMlp

end
-- ==== Proof.LibTile.lean ====
/-
  Operations on a rank-2 tile read at an index given by coordinates: the two column forms of a
  keep-dimensions reduction (a vector as a column, a column spread along the rows), a sum along the rows
  or the columns as a sum over one coordinate, the column of row norms, and a matrix product with one
  contracted axis as a sum over that axis.
-/
import Idealize.ShloMosaic.Lib.ValueIdx
import Idealize.ShloMosaic.Lib.ValueLayout
import Idealize.ShloMosaic.Lib.Pipeline.Value
import Idealize.ShloMosaic.PureOps.Ideal.Laws

namespace Cert.Tile

open Idealize.ShloMosaic Idealize.ShloMosaic.ValueIdx

variable {α : Type}

/-! ## Layout -/

/-- An [a] array cast to [a, 1] reads, at (i, u), the operand at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column spread to [a, b] reads, at (p, c), the column at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Sums along one axis -/

/-- The entries of each row of an [a, b] tile summed: at p, the sum over the b columns. -/
theorem rowSum_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = 0x00000000#32) (p : Fin a) :
    multiReduction (F := Ideal) .add [1] ⟨1, ![a]⟩ src 0x00000000#32 h hφ hacc (ix1 p)
      = ∑ k : Fin b, src (ix2 p k) := by
  refine (Ideal.multiReduction_add_single src 0x00000000#32 h hφ hacc (ix1 p)).trans ?_
  exact Finset.sum_congr rfl fun k _ => congrArg src (funext fun ax => Fin.ext (by
    match ax with
    | ⟨0, _⟩ => rfl
    | ⟨1, _⟩ => rfl))

/-- The entries of each column of an [a, b] tile summed: at q, the sum over the a rows. -/
theorem colSum_apply {a b : ℕ} (src : FVec Ideal ⟨2, ![a, b]⟩ .f32)
    (h : Shape.Reduces ⟨2, ![a, b]⟩ [0] ⟨1, ![b]⟩) (hφ : FKind.Formats .f32)
    (hacc : (0x00000000#32 : BitVec 32) = 0x00000000#32) (q : Fin b) :
    multiReduction (F := Ideal) .add [0] ⟨1, ![b]⟩ src 0x00000000#32 h hφ hacc (ix1 q)
      = ∑ k : Fin a, src (ix2 k q) := by
  refine (Ideal.multiReduction_add_single src 0x00000000#32 h hφ hacc (ix1 q)).trans ?_
  exact Finset.sum_congr rfl fun k _ => congrArg src (funext fun ax => Fin.ext (by
    match ax with
    | ⟨0, _⟩ => rfl
    | ⟨1, _⟩ => rfl))

/-- The row sums kept as a column: at (p, u), the sum over the b columns of row p. -/
theorem rowSumCol_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩) (p : Fin a) (u : Fin 1) :
    shapeCast ⟨2, ![a, 1]⟩ (multiReduction (F := Ideal) .add [1] ⟨1, ![a]⟩ src 0x00000000#32 h hφ hacc) hc (ix2 p u)
      = ∑ k : Fin b, src (ix2 p k) :=
  (shapeCast_a_a1_apply _ hc p u).trans (rowSum_apply src h hφ hacc p)

/-- A square root read at an index. -/
theorem sqrt_apply {s : Shape} {φ : FTy} (v : FVec Ideal s φ) (i : s.Idx) : sqrt v i = Ideal.sqrt (v i) := rfl

/-- The column of Euclidean row norms spread along rows of length c: at (p, x), the square root of
    the sum of the squares of row p. -/
theorem normCol_apply {a b c : ℕ} (X : FVec Ideal ⟨2, ![a, b]⟩ .f32)
    (h : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩)
    (hb : (⟨2, ![a, 1]⟩ : Shape).Broadcasts ⟨2, ![a, c]⟩) (p : Fin a) (x : Fin c) :
    broadcastTo ⟨2, ![a, c]⟩
        (sqrt (shapeCast ⟨2, ![a, 1]⟩ (multiReduction (F := Ideal) .add [1] ⟨1, ![a]⟩ (mulf X X) 0x00000000#32 h hφ hacc) hc))
        hb (ix2 p x)
      = Ideal.sqrt (∑ k : Fin b, X (ix2 p k) * X (ix2 p k)) :=
  (broadcastTo_a1_ab_apply _ hb p x).trans
    (congrArg Ideal.sqrt (rowSumCol_apply (mulf X X) h hφ hacc hc p 0))

/-! ## A matrix product with one contracted axis -/

theorem lhs_plain_0 {M K N : ℕ} (j : (⟨2, ![M, N]⟩ : Shape).Idx) (q : (DotDims.plain M K N).contr.Idx) :
    ((DotDims.plain M K N).lhsIdx j q 0).val = (j 0).val := rfl
theorem lhs_plain_1 {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
theorem rhs_plain_0 {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
theorem rhs_plain_1 {M K N : ℕ} (j : (⟨2, ![M, N]⟩ : Shape).Idx) (q : (DotDims.plain M K N).contr.Idx) :
    ((DotDims.plain M K N).rhsIdx j q 1).val = (j 1).val := rfl

/-- An [M, K] by [K, N] product into the zero accumulator reads, at (p, q), the sum over the K
    contracted coordinates of the left operand at (p, x) times the right at (x, q). -/
theorem matmul_plain_apply {M K N : ℕ} (prec : Option ContractPrecision)
    (lhs : FVec Ideal ⟨2, ![M, K]⟩ .f32) (rhs : FVec Ideal ⟨2, ![K, N]⟩ .f32) (p : Fin M) (q : Fin N) :
    matmul (F := Ideal) (DotDims.plain M K N) prec lhs rhs (constant (F := Ideal) ⟨2, ![M, N]⟩ .f32 0x00000000#32) (ix2 p q)
      = ∑ x : Fin K, lhs (ix2 p x) * rhs (ix2 x q) := by
  refine (Ideal.matmul_constant_zero_apply (DotDims.plain M K N) prec lhs rhs (ix2 p q)).trans ?_
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_plain_0 _ _
      | ⟨1, _⟩ => exact (lhs_plain_1 _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_plain_0 _ _).trans hk
      | ⟨1, _⟩ => exact rhs_plain_1 _ _)
  rw [el, er]

/-! ## The patterns of one layer -/

/-- A tile with each row divided by its Euclidean norm: at (p, x), the entry over the square root of
    the sum of the squares of row p. -/
theorem normalize_apply {a b : ℕ} (X : FVec Ideal ⟨2, ![a, b]⟩ .f32)
    (h : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩)
    (hb : (⟨2, ![a, 1]⟩ : Shape).Broadcasts ⟨2, ![a, b]⟩) (p : Fin a) (x : Fin b) :
    divf X (broadcastTo ⟨2, ![a, b]⟩
        (sqrt (shapeCast ⟨2, ![a, 1]⟩ (multiReduction (F := Ideal) .add [1] ⟨1, ![a]⟩ (mulf X X) 0x00000000#32 h hφ hacc) hc))
        hb) (ix2 p x)
      = Ideal.div (X (ix2 p x)) (Ideal.sqrt (∑ k : Fin b, X (ix2 p k) * X (ix2 p k))) :=
  congrArg (Ideal.div (X (ix2 p x))) (normCol_apply X h hφ hacc hc hb p x)

/-- A dense layer with a rectifier and a multiplicative mask row, the weights given transposed:
    at (p, q), max (Σₓ X p x · WT x q + b q) 0 · mask q. -/
theorem dense_apply {M K N : ℕ} (prec : Option ContractPrecision)
    (X : FVec Ideal ⟨2, ![M, K]⟩ .f32) (WT : FVec Ideal ⟨2, ![K, N]⟩ .f32) (b mk : FVec Ideal ⟨2, ![1, N]⟩ .f32)
    (hw : (⟨2, ![K, N]⟩ : Shape).ShapeCasts ⟨2, ![K, N]⟩)
    (hb hm : (⟨2, ![1, N]⟩ : Shape).ShapeCasts ⟨2, ![1, N]⟩)
    (hbb hmb : (⟨2, ![1, N]⟩ : Shape).Broadcasts ⟨2, ![M, N]⟩) (p : Fin M) (q : Fin N) :
    mulf (maximumf
          (addf (matmul (F := Ideal) (DotDims.plain M K N) prec X (shapeCast ⟨2, ![K, N]⟩ WT hw)
                  (constant (F := Ideal) ⟨2, ![M, N]⟩ .f32 0x00000000#32))
                (broadcastTo ⟨2, ![M, N]⟩ (shapeCast ⟨2, ![1, N]⟩ b hb) hbb))
          (broadcast ⟨2, ![M, N]⟩ (Scalar.ofBits (F := Ideal) .f32 0x00000000#32)))
        (broadcastTo ⟨2, ![M, N]⟩ (shapeCast ⟨2, ![1, N]⟩ mk hm) hmb) (ix2 p q)
      = max ((∑ x : Fin K, X (ix2 p x) * WT (ix2 x q)) + b (ix2 (0 : Fin 1) q)) 0 * mk (ix2 (0 : Fin 1) q) :=
  congrArg₂ (· * ·)
    (congrArg₂ max
      (congrArg₂ (· + ·)
        ((matmul_plain_apply prec X _ p q).trans
          (Finset.sum_congr rfl fun x _ => congrArg (X (ix2 p x) * ·) (congrFun (shapeCast_self WT hw) (ix2 x q))))
        ((broadcastTo_1b_ab_apply _ hbb p q).trans (congrFun (shapeCast_self b hb) (ix2 (0 : Fin 1) q))))
      Ideal.ofBits_zero_f32)
    ((broadcastTo_1b_ab_apply _ hmb p q).trans (congrFun (shapeCast_self mk hm) (ix2 (0 : Fin 1) q)))

/-- The same without a mask: at (p, q), max (Σₓ X p x · WT x q + b q) 0. -/
theorem denseOut_apply {M K N : ℕ} (prec : Option ContractPrecision)
    (X : FVec Ideal ⟨2, ![M, K]⟩ .f32) (WT : FVec Ideal ⟨2, ![K, N]⟩ .f32) (b : FVec Ideal ⟨2, ![1, N]⟩ .f32)
    (hw : (⟨2, ![K, N]⟩ : Shape).ShapeCasts ⟨2, ![K, N]⟩)
    (hb : (⟨2, ![1, N]⟩ : Shape).ShapeCasts ⟨2, ![1, N]⟩)
    (hbb : (⟨2, ![1, N]⟩ : Shape).Broadcasts ⟨2, ![M, N]⟩) (p : Fin M) (q : Fin N) :
    maximumf
          (addf (matmul (F := Ideal) (DotDims.plain M K N) prec X (shapeCast ⟨2, ![K, N]⟩ WT hw)
                  (constant (F := Ideal) ⟨2, ![M, N]⟩ .f32 0x00000000#32))
                (broadcastTo ⟨2, ![M, N]⟩ (shapeCast ⟨2, ![1, N]⟩ b hb) hbb))
          (broadcast ⟨2, ![M, N]⟩ (Scalar.ofBits (F := Ideal) .f32 0x00000000#32)) (ix2 p q)
      = max ((∑ x : Fin K, X (ix2 p x) * WT (ix2 x q)) + b (ix2 (0 : Fin 1) q)) 0 :=
  congrArg₂ max
    (congrArg₂ (· + ·)
      ((matmul_plain_apply prec X _ p q).trans
        (Finset.sum_congr rfl fun x _ => congrArg (X (ix2 p x) * ·) (congrFun (shapeCast_self WT hw) (ix2 x q))))
      ((broadcastTo_1b_ab_apply _ hbb p q).trans (congrFun (shapeCast_self b hb) (ix2 (0 : Fin 1) q))))
    Ideal.ofBits_zero_f32

/-- The sum of the squares of every entry of a tile, kept as a [1, 1] value. -/
theorem totalSq_apply {a b : ℕ} (Y : FVec Ideal ⟨2, ![a, b]⟩ .f32)
    (h1 : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩)
    (h0 : Shape.Reduces ⟨2, ![a, 1]⟩ [0] ⟨1, ![1]⟩) (hφ' : FKind.Formats .f32)
    (hacc' : (0x00000000#32 : BitVec 32) = 0x00000000#32)
    (hc1 : (⟨1, ![1]⟩ : Shape).ShapeCasts ⟨2, ![1, 1]⟩) (u w : Fin 1) :
    shapeCast ⟨2, ![1, 1]⟩
        (multiReduction (F := Ideal) .add [0] ⟨1, ![1]⟩
          (shapeCast ⟨2, ![a, 1]⟩ (multiReduction (F := Ideal) .add [1] ⟨1, ![a]⟩ (mulf Y Y) 0x00000000#32 h1 hφ hacc) hc)
          0x00000000#32 h0 hφ' hacc') hc1 (ix2 u w)
      = ∑ k : Fin a, ∑ j : Fin b, Y (ix2 k j) * Y (ix2 k j) :=
  (shapeCast_a_1a_apply _ hc1 u w).trans
    ((colSum_apply _ h0 hφ' hacc' w).trans
      (Finset.sum_congr rfl fun k _ => rowSumCol_apply (mulf Y Y) h1 hφ hacc hc k w))

/-- A row accumulator plus, at each column q, the sum over the rows k of V k q times the sum of row k
    of U. -/
theorem sdAcc_apply {a b c : ℕ} (U : FVec Ideal ⟨2, ![a, c]⟩ .f32) (V : FVec Ideal ⟨2, ![a, b]⟩ .f32)
    (acc : FVec Ideal ⟨2, ![1, b]⟩ .f32)
    (h1 : Shape.Reduces ⟨2, ![a, c]⟩ [1] ⟨1, ![a]⟩) (hφ : FKind.Formats .f32)
    (hacc : (0x00000000#32 : BitVec 32) = 0x00000000#32)
    (hc : (⟨1, ![a]⟩ : Shape).ShapeCasts ⟨2, ![a, 1]⟩)
    (hb : (⟨2, ![a, 1]⟩ : Shape).Broadcasts ⟨2, ![a, b]⟩)
    (h0 : Shape.Reduces ⟨2, ![a, b]⟩ [0] ⟨1, ![b]⟩) (hφ' : FKind.Formats .f32)
    (hacc' : (0x00000000#32 : BitVec 32) = 0x00000000#32)
    (hc1 : (⟨1, ![b]⟩ : Shape).ShapeCasts ⟨2, ![1, b]⟩)
    (hs : (⟨2, ![1, b]⟩ : Shape).ShapeCasts ⟨2, ![1, b]⟩) (u : Fin 1) (q : Fin b) :
    shapeCast ⟨2, ![1, b]⟩
        (addf acc
          (shapeCast ⟨2, ![1, b]⟩
            (multiReduction (F := Ideal) .add [0] ⟨1, ![b]⟩
              (mulf V (broadcastTo ⟨2, ![a, b]⟩
                (shapeCast ⟨2, ![a, 1]⟩ (multiReduction (F := Ideal) .add [1] ⟨1, ![a]⟩ U 0x00000000#32 h1 hφ hacc) hc) hb))
              0x00000000#32 h0 hφ' hacc') hc1)) hs (ix2 u q)
      = acc (ix2 u q) + ∑ k : Fin a, V (ix2 k q) * ∑ x : Fin c, U (ix2 k x) :=
  (congrFun (shapeCast_self _ hs) (ix2 u q)).trans
    (congrArg (acc (ix2 u q) + ·)
      ((shapeCast_a_1a_apply _ hc1 u q).trans
        ((colSum_apply _ h0 hφ' hacc' q).trans
          (Finset.sum_congr rfl fun k _ => congrArg (V (ix2 k q) * ·)
            ((broadcastTo_a1_ab_apply _ hb k q).trans (rowSumCol_apply U h1 hφ hacc hc k 0))))))

end Cert.Tile
-- ==== Proof.RowLayout.lean ====
/-
  Layout steps on arrays whose leading axis counts rows, read at an entry (row, column), for any number n of
  rows: the two programs run the same steps, one on tiles of 4096 rows and one on all 2097152 rows at once.
  A one-wide column slice flattened to a vector; the first three and the last sixteen of nineteen columns; sixteen
  vectors made columns (by a cast that appends a unit axis, or by a broadcast along a new unit axis) and laid side
  by side; two sixteen-wide blocks laid side by side.
-/
import proofs.«168292_j81827716923549_1_alg».proof.Proof.LibTile
import Idealize.ShloMosaic.Lib.Pipeline.Value
import Idealize.ShloMosaic.Lib.ValueIdx

namespace Cert.ShMlp.Rows

open Idealize.ShloMosaic Idealize.ShloMosaic.ValueIdx

variable {α : Type} {n : ℕ}

/-- Column o of an [n, 3] array taken as a one-wide slice and flattened: at p, the array at (p, o). -/
theorem col_apply (v : (⟨2, ![n, 3]⟩ : Shape).Idx → α) (o : Nat) (ho : o < 3) (hs : (⟨2, ![n, 3]⟩ : Shape).Slices ![0, o] (⟨2, ![n, 1]⟩ : Shape))
    (hc : (⟨2, ![n, 1]⟩ : Shape).ShapeCasts (⟨1, ![n]⟩ : Shape)) (p : Fin n) :
    shapeCast (⟨1, ![n]⟩ : Shape) (extractStridedSlice (⟨2, ![n, 1]⟩ : Shape) ![0, o] v hs) hc (ix1 p) = v (ix2 p ⟨o, ho⟩) := by
  refine (shapeCast_apply _ hc (ix1 p) (ix2 p (0 : Fin 1)) ?_).trans ?_
  · rw [Shape.rowMajor_val_two, Shape.rowMajor_val_one]
    show p.val * 1 + 0 = p.val
    omega
  · refine extractStridedSlice_apply _ v hs _ _ fun a => ?_
    match a with
    | ⟨0, _⟩ => show p.val = 0 + p.val; omega
    | ⟨1, _⟩ => show o = o + 0; omega

/-- The first three of nineteen columns: at (p, c), the array at (p, c). -/
theorem head3_apply (v : (⟨2, ![n, 19]⟩ : Shape).Idx → α) (hs : (⟨2, ![n, 19]⟩ : Shape).Slices ![0, 0] (⟨2, ![n, 3]⟩ : Shape)) (p : Fin n) (c : Fin 3) :
    extractStridedSlice (⟨2, ![n, 3]⟩ : Shape) ![0, 0] v hs (ix2 p c) = v (ix2 p ⟨c.val, by have := c.isLt; omega⟩) := by
  refine extractStridedSlice_apply _ v hs _ _ fun a => ?_
  match a with
  | ⟨0, _⟩ => show p.val = 0 + p.val; omega
  | ⟨1, _⟩ => show c.val = 0 + c.val; omega

/-- The last sixteen of nineteen columns: at (p, c), the array at (p, c + 3). -/
theorem tail16_apply (v : (⟨2, ![n, 19]⟩ : Shape).Idx → α) (hs : (⟨2, ![n, 19]⟩ : Shape).Slices ![0, 3] (⟨2, ![n, 16]⟩ : Shape)) (p : Fin n) (c : Fin 16) :
    extractStridedSlice (⟨2, ![n, 16]⟩ : Shape) ![0, 3] v hs (ix2 p c) = v (ix2 p ⟨c.val + 3, by have := c.isLt; omega⟩) := by
  refine extractStridedSlice_apply _ v hs _ _ fun a => ?_
  match a with
  | ⟨0, _⟩ => show p.val = 0 + p.val; omega
  | ⟨1, _⟩ => show c.val + 3 = 3 + c.val; omega

/-- A vector broadcast along a new trailing unit axis: at (p, u), the vector at p. -/
theorem bcastCol_apply (x : (⟨1, ![n]⟩ : Shape).Idx → α) (hb : (⟨1, ![n]⟩ : Shape).BroadcastsInDim (⟨2, ![n, 1]⟩ : Shape) ![0]) (p : Fin n) (u : Fin 1) :
    broadcastInDim (⟨2, ![n, 1]⟩ : Shape) ![0] hb x (ix2 p u) = x (ix1 p) := by
  refine broadcastInDim_apply _ hb x (ix2 p u) (ix1 p) fun a => ?_
  match a with
  | ⟨0, _⟩ =>
    show p.val = if n = 1 then 0 else p.val
    split
    · have := p.isLt; omega
    · rfl

/-- Sixteen one-wide columns laid side by side: at (p, j), column j at (p, 0). -/
theorem cols16_apply (f : Fin 16 → ((⟨2, ![n, 1]⟩ : Shape).Idx → α))
    (h : Shape.Concatenates [(⟨2, ![n, 1]⟩ : Shape), (⟨2, ![n, 1]⟩ : Shape), (⟨2, ![n, 1]⟩ : Shape), (⟨2, ![n, 1]⟩ : Shape), (⟨2, ![n, 1]⟩ : Shape), (⟨2, ![n, 1]⟩ : Shape), (⟨2, ![n, 1]⟩ : Shape), (⟨2, ![n, 1]⟩ : Shape), (⟨2, ![n, 1]⟩ : Shape), (⟨2, ![n, 1]⟩ : Shape), (⟨2, ![n, 1]⟩ : Shape), (⟨2, ![n, 1]⟩ : Shape), (⟨2, ![n, 1]⟩ : Shape), (⟨2, ![n, 1]⟩ : Shape), (⟨2, ![n, 1]⟩ : Shape), (⟨2, ![n, 1]⟩ : Shape)] (⟨2, ![n, 16]⟩ : Shape) 1)
    (p : Fin n) (j : Fin 16) :
    concatenate (⟨2, ![n, 16]⟩ : Shape) 1 [⟨(⟨2, ![n, 1]⟩ : Shape), f 0⟩, ⟨(⟨2, ![n, 1]⟩ : Shape), f 1⟩, ⟨(⟨2, ![n, 1]⟩ : Shape), f 2⟩, ⟨(⟨2, ![n, 1]⟩ : Shape), f 3⟩, ⟨(⟨2, ![n, 1]⟩ : Shape), f 4⟩, ⟨(⟨2, ![n, 1]⟩ : Shape), f 5⟩, ⟨(⟨2, ![n, 1]⟩ : Shape), f 6⟩, ⟨(⟨2, ![n, 1]⟩ : Shape), f 7⟩, ⟨(⟨2, ![n, 1]⟩ : Shape), f 8⟩, ⟨(⟨2, ![n, 1]⟩ : Shape), f 9⟩, ⟨(⟨2, ![n, 1]⟩ : Shape), f 10⟩, ⟨(⟨2, ![n, 1]⟩ : Shape), f 11⟩, ⟨(⟨2, ![n, 1]⟩ : Shape), f 12⟩, ⟨(⟨2, ![n, 1]⟩ : Shape), f 13⟩, ⟨(⟨2, ![n, 1]⟩ : Shape), f 14⟩, ⟨(⟨2, ![n, 1]⟩ : Shape), f 15⟩] h (ix2 p j) = f j (ix2 p (0 : Fin 1)) := by
  refine concatenate_ofFn_unit_apply (t := (⟨2, ![n, 16]⟩ : Shape)) (s₁ := (⟨2, ![n, 1]⟩ : Shape)) (1 : Fin 2) f h rfl rfl (ix2 p j) j rfl
    (ix2 p (0 : Fin 1)) ?_
  intro b hb
  match b with
  | ⟨0, _⟩ => rfl
  | ⟨1, _⟩ => exact absurd rfl hb

/-- Sixteen vectors, each cast to a one-wide column, laid side by side: at (p, j), vector j at p. -/
theorem castCols16_apply (g : Fin 16 → ((⟨1, ![n]⟩ : Shape).Idx → α)) (hc : (⟨1, ![n]⟩ : Shape).ShapeCasts (⟨2, ![n, 1]⟩ : Shape))
    (h : Shape.Concatenates [(⟨2, ![n, 1]⟩ : Shape), (⟨2, ![n, 1]⟩ : Shape), (⟨2, ![n, 1]⟩ : Shape), (⟨2, ![n, 1]⟩ : Shape), (⟨2, ![n, 1]⟩ : Shape), (⟨2, ![n, 1]⟩ : Shape), (⟨2, ![n, 1]⟩ : Shape), (⟨2, ![n, 1]⟩ : Shape), (⟨2, ![n, 1]⟩ : Shape), (⟨2, ![n, 1]⟩ : Shape), (⟨2, ![n, 1]⟩ : Shape), (⟨2, ![n, 1]⟩ : Shape), (⟨2, ![n, 1]⟩ : Shape), (⟨2, ![n, 1]⟩ : Shape), (⟨2, ![n, 1]⟩ : Shape), (⟨2, ![n, 1]⟩ : Shape)] (⟨2, ![n, 16]⟩ : Shape) 1)
    (p : Fin n) (j : Fin 16) :
    concatenate (⟨2, ![n, 16]⟩ : Shape) 1 [⟨(⟨2, ![n, 1]⟩ : Shape), shapeCast (⟨2, ![n, 1]⟩ : Shape) (g 0) hc⟩, ⟨(⟨2, ![n, 1]⟩ : Shape), shapeCast (⟨2, ![n, 1]⟩ : Shape) (g 1) hc⟩, ⟨(⟨2, ![n, 1]⟩ : Shape), shapeCast (⟨2, ![n, 1]⟩ : Shape) (g 2) hc⟩, ⟨(⟨2, ![n, 1]⟩ : Shape), shapeCast (⟨2, ![n, 1]⟩ : Shape) (g 3) hc⟩, ⟨(⟨2, ![n, 1]⟩ : Shape), shapeCast (⟨2, ![n, 1]⟩ : Shape) (g 4) hc⟩, ⟨(⟨2, ![n, 1]⟩ : Shape), shapeCast (⟨2, ![n, 1]⟩ : Shape) (g 5) hc⟩, ⟨(⟨2, ![n, 1]⟩ : Shape), shapeCast (⟨2, ![n, 1]⟩ : Shape) (g 6) hc⟩, ⟨(⟨2, ![n, 1]⟩ : Shape), shapeCast (⟨2, ![n, 1]⟩ : Shape) (g 7) hc⟩, ⟨(⟨2, ![n, 1]⟩ : Shape), shapeCast (⟨2, ![n, 1]⟩ : Shape) (g 8) hc⟩, ⟨(⟨2, ![n, 1]⟩ : Shape), shapeCast (⟨2, ![n, 1]⟩ : Shape) (g 9) hc⟩, ⟨(⟨2, ![n, 1]⟩ : Shape), shapeCast (⟨2, ![n, 1]⟩ : Shape) (g 10) hc⟩, ⟨(⟨2, ![n, 1]⟩ : Shape), shapeCast (⟨2, ![n, 1]⟩ : Shape) (g 11) hc⟩, ⟨(⟨2, ![n, 1]⟩ : Shape), shapeCast (⟨2, ![n, 1]⟩ : Shape) (g 12) hc⟩, ⟨(⟨2, ![n, 1]⟩ : Shape), shapeCast (⟨2, ![n, 1]⟩ : Shape) (g 13) hc⟩, ⟨(⟨2, ![n, 1]⟩ : Shape), shapeCast (⟨2, ![n, 1]⟩ : Shape) (g 14) hc⟩, ⟨(⟨2, ![n, 1]⟩ : Shape), shapeCast (⟨2, ![n, 1]⟩ : Shape) (g 15) hc⟩] h (ix2 p j) = g j (ix1 p) :=
  (cols16_apply (fun k => shapeCast (⟨2, ![n, 1]⟩ : Shape) (g k) hc) h p j).trans (Cert.Tile.shapeCast_a_a1_apply (g j) hc p 0)

/-- Sixteen vectors, each broadcast to a one-wide column, laid side by side: at (p, j), vector j at p. -/
theorem bcastCols16_apply (g : Fin 16 → ((⟨1, ![n]⟩ : Shape).Idx → α)) (hb : (⟨1, ![n]⟩ : Shape).BroadcastsInDim (⟨2, ![n, 1]⟩ : Shape) ![0])
    (h : Shape.Concatenates [(⟨2, ![n, 1]⟩ : Shape), (⟨2, ![n, 1]⟩ : Shape), (⟨2, ![n, 1]⟩ : Shape), (⟨2, ![n, 1]⟩ : Shape), (⟨2, ![n, 1]⟩ : Shape), (⟨2, ![n, 1]⟩ : Shape), (⟨2, ![n, 1]⟩ : Shape), (⟨2, ![n, 1]⟩ : Shape), (⟨2, ![n, 1]⟩ : Shape), (⟨2, ![n, 1]⟩ : Shape), (⟨2, ![n, 1]⟩ : Shape), (⟨2, ![n, 1]⟩ : Shape), (⟨2, ![n, 1]⟩ : Shape), (⟨2, ![n, 1]⟩ : Shape), (⟨2, ![n, 1]⟩ : Shape), (⟨2, ![n, 1]⟩ : Shape)] (⟨2, ![n, 16]⟩ : Shape) 1)
    (p : Fin n) (j : Fin 16) :
    concatenate (⟨2, ![n, 16]⟩ : Shape) 1 [⟨(⟨2, ![n, 1]⟩ : Shape), broadcastInDim (⟨2, ![n, 1]⟩ : Shape) ![0] hb (g 0)⟩, ⟨(⟨2, ![n, 1]⟩ : Shape), broadcastInDim (⟨2, ![n, 1]⟩ : Shape) ![0] hb (g 1)⟩, ⟨(⟨2, ![n, 1]⟩ : Shape), broadcastInDim (⟨2, ![n, 1]⟩ : Shape) ![0] hb (g 2)⟩, ⟨(⟨2, ![n, 1]⟩ : Shape), broadcastInDim (⟨2, ![n, 1]⟩ : Shape) ![0] hb (g 3)⟩, ⟨(⟨2, ![n, 1]⟩ : Shape), broadcastInDim (⟨2, ![n, 1]⟩ : Shape) ![0] hb (g 4)⟩, ⟨(⟨2, ![n, 1]⟩ : Shape), broadcastInDim (⟨2, ![n, 1]⟩ : Shape) ![0] hb (g 5)⟩, ⟨(⟨2, ![n, 1]⟩ : Shape), broadcastInDim (⟨2, ![n, 1]⟩ : Shape) ![0] hb (g 6)⟩, ⟨(⟨2, ![n, 1]⟩ : Shape), broadcastInDim (⟨2, ![n, 1]⟩ : Shape) ![0] hb (g 7)⟩, ⟨(⟨2, ![n, 1]⟩ : Shape), broadcastInDim (⟨2, ![n, 1]⟩ : Shape) ![0] hb (g 8)⟩, ⟨(⟨2, ![n, 1]⟩ : Shape), broadcastInDim (⟨2, ![n, 1]⟩ : Shape) ![0] hb (g 9)⟩, ⟨(⟨2, ![n, 1]⟩ : Shape), broadcastInDim (⟨2, ![n, 1]⟩ : Shape) ![0] hb (g 10)⟩, ⟨(⟨2, ![n, 1]⟩ : Shape), broadcastInDim (⟨2, ![n, 1]⟩ : Shape) ![0] hb (g 11)⟩, ⟨(⟨2, ![n, 1]⟩ : Shape), broadcastInDim (⟨2, ![n, 1]⟩ : Shape) ![0] hb (g 12)⟩, ⟨(⟨2, ![n, 1]⟩ : Shape), broadcastInDim (⟨2, ![n, 1]⟩ : Shape) ![0] hb (g 13)⟩, ⟨(⟨2, ![n, 1]⟩ : Shape), broadcastInDim (⟨2, ![n, 1]⟩ : Shape) ![0] hb (g 14)⟩, ⟨(⟨2, ![n, 1]⟩ : Shape), broadcastInDim (⟨2, ![n, 1]⟩ : Shape) ![0] hb (g 15)⟩] h (ix2 p j) = g j (ix1 p) :=
  (cols16_apply (fun k => broadcastInDim (⟨2, ![n, 1]⟩ : Shape) ![0] hb (g k)) h p j).trans (bcastCol_apply (g j) hb p 0)

/-- Two sixteen-wide blocks laid side by side: at (p, k), the first at (p, k) while k < 16, else the second at
    (p, k − 16). -/
theorem halves_apply (A B : (⟨2, ![n, 16]⟩ : Shape).Idx → α) (h : Shape.Concatenates [(⟨2, ![n, 16]⟩ : Shape), (⟨2, ![n, 16]⟩ : Shape)] (⟨2, ![n, 32]⟩ : Shape) 1)
    (p : Fin n) (k : Fin 32) :
    concatenate (⟨2, ![n, 32]⟩ : Shape) 1 [⟨(⟨2, ![n, 16]⟩ : Shape), A⟩, ⟨(⟨2, ![n, 16]⟩ : Shape), B⟩] h (ix2 p k)
      = if hk : k.val < 16 then A (ix2 p ⟨k.val, hk⟩) else B (ix2 p ⟨k.val - 16, by have := k.isLt; omega⟩) := by
  by_cases hk : k.val < 16
  · rw [dif_pos hk]
    refine concatenate_pair_apply_left (t := (⟨2, ![n, 32]⟩ : Shape)) (s₁ := (⟨2, ![n, 16]⟩ : Shape)) (s₂ := (⟨2, ![n, 16]⟩ : Shape)) (1 : Fin 2) A B h (ix2 p k) rfl
      (ix2 p (⟨k.val, hk⟩ : Fin 16)) ?_
    intro b
    match b with
    | ⟨0, _⟩ => rfl
    | ⟨1, _⟩ => rfl
  · rw [dif_neg hk]
    have hk' : k.val - 16 < 16 := by have := k.isLt; omega
    refine concatenate_pair_apply_right (t := (⟨2, ![n, 32]⟩ : Shape)) (s₁ := (⟨2, ![n, 16]⟩ : Shape)) (s₂ := (⟨2, ![n, 16]⟩ : Shape)) (1 : Fin 2) A B h (ix2 p k) rfl rfl
      (ix2 p (⟨k.val - 16, hk'⟩ : Fin 16)) ?_ ?_
    · intro b hb
      match b with
      | ⟨0, _⟩ => rfl
      | ⟨1, _⟩ => exact absurd rfl hb
    · show k.val - 16 + 16 = k.val
      omega

end Cert.ShMlp.Rows
-- ==== Proof.LibPlainProduct.lean ====
/-
  A matrix product with one contracted axis, read at an entry over the extended reals: the kernel's product into a
  zero accumulator and the host's product are both the plain sum, over the contracted coordinate, of the left
  operand's row entry times the right operand's column entry — whatever formats the operands carry.
-/
import Idealize.ShloMosaic.Lib.ValueIdx
import Idealize.ShloMosaic.PureOps.Ideal.Laws

namespace Cert.PlainProduct

open Idealize.ShloMosaic Idealize.ShloMosaic.ValueIdx

variable {M K N : ℕ}

/-- The left operand is read at the output's row … -/
theorem lhs_row (j : (⟨2, ![M, N]⟩ : Shape).Idx) (q : (DotDims.plain M K N).contr.Idx) :
    ((DotDims.plain M K N).lhsIdx j q 0).val = (j 0).val := rfl
/-- … and the contracted coordinate; -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- the right operand at the contracted coordinate … -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the output's column. -/
theorem rhs_col (j : (⟨2, ![M, N]⟩ : Shape).Idx) (q : (DotDims.plain M K N).contr.Idx) :
    ((DotDims.plain M K N).rhsIdx j q 1).val = (j 1).val := rfl

/-- The sum over the contraction's index set is the sum over the K values of its one coordinate. -/
theorem sum_contr {φ₁ φ₂ : FTy} (lhs : FVec Ideal ⟨2, ![M, K]⟩ φ₁) (rhs : FVec Ideal ⟨2, ![K, N]⟩ φ₂) (p : Fin M) (q : Fin N) :
    (∑ k : (DotDims.plain M K N).contr.Idx,
        lhs ((DotDims.plain M K N).lhsIdx (ix2 p q) k) * rhs ((DotDims.plain M K N).rhsIdx (ix2 p q) k))
      = ∑ x : Fin K, lhs (ix2 p x) * rhs (ix2 x q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

/-- The kernel's product into the zero accumulator, at (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (F := Ideal) (DotDims.plain M K N) prec lhs rhs (constant (F := Ideal) ⟨2, ![M, N]⟩ .f32 0x00000000#32) (ix2 p q)
      = ∑ x : Fin K, lhs (ix2 p x) * rhs (ix2 x q) :=
  (Ideal.matmul_constant_zero_apply (DotDims.plain M K N) prec lhs rhs (ix2 p q)).trans (sum_contr lhs rhs p q)

/-- The host's product, at (p, q). -/
theorem dotGeneral_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (F := Ideal) (DotDims.plain M K N) prec lhs rhs (ix2 p q)
      = ∑ x : Fin K, lhs (ix2 p x) * rhs (ix2 x q) := by
  simp only [Host.dotGeneral]
  exact (Ideal.dotGeneral_apply (DotDims.plain M K N) prec _ lhs rhs (ix2 p q)).trans (sum_contr lhs rhs p q)

/-- The product of an [M, K] array by a [K, N] array as one array: entry (p, q) is the sum over x of lhs (p, x) · rhs (x, q). -/
noncomputable def prod {φ₁ φ₂ : FTy} (lhs : FVec Ideal ⟨2, ![M, K]⟩ φ₁) (rhs : FVec Ideal ⟨2, ![K, N]⟩ φ₂) :
    FVec Ideal ⟨2, ![M, N]⟩ .f32 :=
  fun i => ∑ x : Fin K, lhs (ix2 (i 0) x) * rhs (ix2 x (i 1))

theorem prod_apply {φ₁ φ₂ : FTy} (lhs : FVec Ideal ⟨2, ![M, K]⟩ φ₁) (rhs : FVec Ideal ⟨2, ![K, N]⟩ φ₂) (p : Fin M) (q : Fin N) :
    prod lhs rhs (ix2 p q) = ∑ x : Fin K, lhs (ix2 p x) * rhs (ix2 x q) := rfl

/-- The host's product is that array. -/
theorem dotGeneral_eq_prod {φ₁ φ₂ : FTy} (prec : Option ContractPrecision)
    (lhs : FVec Ideal ⟨2, ![M, K]⟩ φ₁) (rhs : FVec Ideal ⟨2, ![K, N]⟩ φ₂) :
    Host.dotGeneral (F := Ideal) (DotDims.plain M K N) prec lhs rhs = prod lhs rhs := by
  funext i
  obtain ⟨p, q, rfl⟩ : ∃ (p : Fin M) (q : Fin N), i = ix2 p q := ⟨i 0, i 1, eq_ix2 i⟩
  exact dotGeneral_apply prec lhs rhs p q

end Cert.PlainProduct
-- ==== Proof.TileRow.lean ====
/-
  One tile of the kernel, read at an entry. The tile is 4096 consecutive rows of the input; the body's one
  store holds, at (p, q), the network's output q on row p of the tile. Each moved coordinate is a flattened
  one-wide column of 2 d − 1; every harmonic column is a pointwise polynomial of those three vectors, so the
  sixteen columns side by side hold harmonic j of row p at (p, j); the feature block is that block beside the
  tile's last sixteen columns; and each of the three products is a plain sum over the contracted coordinate,
  because its accumulator starts at zero and a change of float format is the identity over the extended reals.
-/
import proofs.«168292_j81827716923549_1_alg».proof.Proof.Gen.KernelIdeal.Skeleton
import proofs.«168292_j81827716923549_1_alg».proof.Proof.Spec
import proofs.«168292_j81827716923549_1_alg».proof.Proof.RowLayout
import proofs.«168292_j81827716923549_1_alg».proof.Proof.LibPlainProduct
import Idealize.ShloMosaic.Lib.Pipeline.Value
import Idealize.ShloMosaic.Lib.ValueIdx

noncomputable section

namespace Cert.ShMlp.Tile

open Cert.KernelIdeal Cert.KernelIdeal.Gen Idealize.ShloMosaic Idealize.ShloMosaic.TcCoe Idealize.ShloMosaic.ValueIdx
open Cert.ShMlp Cert.ShMlp.Rows
open scoped BigOperators

variable (v0 : Vec Ideal S4096x19 .f32) (w1 : Vec Ideal S32x64 .f32) (w2 : Vec Ideal S64x64 .f32) (w3 : Vec Ideal S64x3 .f32)

/-- Row p's first coordinate, moved. -/
theorem compX (p : Fin 4096) : k0_pay5 v0 (ix1 p) = comp (v0 (ix2 p 0)) := by
  unfold k0_pay5
  refine (col_apply (k0_pay4 v0) 0 (by decide) _ _ p).trans ?_
  unfold k0_pay4
  exact congrArg (fun t => t * lit 0x40000000#32 - lit 0x3F800000#32) (head3_apply v0 _ p 0)

/-- Row p's second coordinate, moved. -/
theorem compY (p : Fin 4096) : k0_pay6 v0 (ix1 p) = comp (v0 (ix2 p 1)) := by
  unfold k0_pay6
  refine (col_apply (k0_pay4 v0) 1 (by decide) _ _ p).trans ?_
  unfold k0_pay4
  exact congrArg (fun t => t * lit 0x40000000#32 - lit 0x3F800000#32) (head3_apply v0 _ p 1)

/-- Row p's third coordinate, moved. -/
theorem compZ (p : Fin 4096) : k0_pay7 v0 (ix1 p) = comp (v0 (ix2 p 2)) := by
  unfold k0_pay7
  refine (col_apply (k0_pay4 v0) 2 (by decide) _ _ p).trans ?_
  unfold k0_pay4
  exact congrArg (fun t => t * lit 0x40000000#32 - lit 0x3F800000#32) (head3_apply v0 _ p 2)

/-- The sixteen harmonic columns of the tile, side by side. -/
abbrev shBlock : FVec Ideal S4096x16 .f32 :=
  k0_pay1 (k0_pay23 (k0_pay6 v0) (k0_pay11 v0)) (k0_pay24 (k0_pay7 v0) (k0_pay11 v0)) (k0_pay25 (k0_pay5 v0) (k0_pay11 v0)) (k0_pay26 (k0_pay7 v0) (k0_pay9 v0) (k0_pay10 v0)) (k0_pay27 (k0_pay5 v0) (k0_pay9 v0) (k0_pay10 v0)) (k0_pay28 (k0_pay12 (F := Ideal))) (k0_pay29 (k0_pay13 v0)) (k0_pay30 (k0_pay14 v0)) (k0_pay31 (k0_pay15 v0)) (k0_pay32 (k0_pay16 v0)) (k0_pay33 (k0_pay17 v0)) (k0_pay34 (k0_pay18 v0)) (k0_pay35 (k0_pay19 v0)) (k0_pay36 (k0_pay20 v0)) (k0_pay37 (k0_pay10 v0) (k0_pay21 v0) (k0_pay22 v0)) (k0_pay38 (k0_pay7 v0) (k0_pay8 v0))

/-- Every harmonic column is a pointwise polynomial of the three moved-coordinate vectors, so the block at (p, j) is
    harmonic j of row p's direction. -/
theorem shBlock_apply (p : Fin 4096) (j : Fin 16) :
    shBlock v0 (ix2 p j) = sh (k0_pay5 v0 (ix1 p)) (k0_pay6 v0 (ix1 p)) (k0_pay7 v0 (ix1 p)) j :=
  castCols16_apply (fun n i => sh (k0_pay5 v0 i) (k0_pay6 v0 i) (k0_pay7 v0 i) n) Facts₀.shapeCasts_S4096_S4096x1
    Facts₀.concatenates_S4096x1_S4096x1_S4096x1_S4096x1_S4096x1_S4096x1_S4096x1_S4096x1_S4096x1_S4096x1_S4096x1_S4096x1_S4096x1_S4096x1_S4096x1_S4096x1_S4096x16_d1 p j

/-- The thirty-two features of the tile: the harmonic block, then the tile's columns 3 … 18. -/
abbrev featBlock : FVec Ideal S4096x32 .f32 :=
  concatenate S4096x32 1 [⟨S4096x16, shBlock v0⟩, ⟨S4096x16, k0_pay3 v0⟩] Facts₀.concatenates_S4096x16_S4096x16_S4096x32_d1

theorem featBlock_apply (p : Fin 4096) (k : Fin 32) :
    featBlock v0 (ix2 p k) = enc (fun c => v0 (ix2 p c)) k := by
  unfold enc
  refine (halves_apply (shBlock v0) (k0_pay3 v0) Facts₀.concatenates_S4096x16_S4096x16_S4096x32_d1 p k).trans ?_
  by_cases h : k.val < 16
  · rw [dif_pos h, dif_pos h, shBlock_apply, compX, compY, compZ]
  · rw [dif_neg h, dif_neg h]
    unfold k0_pay3
    exact tail16_apply v0 _ p ⟨k.val - 16, by have := k.isLt; omega⟩

/-- The first hidden block of the tile. -/
abbrev h1Block : FVec Ideal S4096x64 .f32 :=
  maximumf (matmul dot_S4096x32_S32x64_S4096x64_1_0_0_1_n_n none (truncf .bf16 (featBlock v0) Facts₀.bitsLt_bf16_f32)
      (truncf .bf16 w1 Facts₀.bitsLt_bf16_f32) (constant S4096x64 .f32 0x00000000#32))
    (broadcast S4096x64 (Scalar.ofBits .f32 0x00000000#32))

theorem h1Block_apply (p : Fin 4096) (j : Fin 64) :
    h1Block v0 w1 (ix2 p j) = hid1 (fun c => v0 (ix2 p c)) w1 j := by
  unfold hid1
  refine (maximumf_apply _ _ _).trans (congrArg₂ max ?_ rfl)
  refine (Cert.PlainProduct.matmul_zero_apply (M := 4096) (K := 32) (N := 64) none
    (truncf .bf16 (featBlock v0) Facts₀.bitsLt_bf16_f32) (truncf .bf16 w1 Facts₀.bitsLt_bf16_f32) p j).trans ?_
  exact Finset.sum_congr rfl fun k _ => congrArg (· * w1 (ix2 k j)) (featBlock_apply v0 p k)

/-- The second hidden block of the tile. -/
abbrev h2Block : FVec Ideal S4096x64 .f32 :=
  maximumf (matmul dot_S4096x64_S64x64_S4096x64_1_0_0_1_n_n none (truncf .bf16 (h1Block v0 w1) Facts₀.bitsLt_bf16_f32)
      (truncf .bf16 w2 Facts₀.bitsLt_bf16_f32) (constant S4096x64 .f32 0x00000000#32))
    (broadcast S4096x64 (Scalar.ofBits .f32 0x00000000#32))

theorem h2Block_apply (p : Fin 4096) (j : Fin 64) :
    h2Block v0 w1 w2 (ix2 p j) = hid2 (fun c => v0 (ix2 p c)) w1 w2 j := by
  unfold hid2
  refine (maximumf_apply _ _ _).trans (congrArg₂ max ?_ rfl)
  refine (Cert.PlainProduct.matmul_zero_apply (M := 4096) (K := 64) (N := 64) none
    (truncf .bf16 (h1Block v0 w1) Facts₀.bitsLt_bf16_f32) (truncf .bf16 w2 Facts₀.bitsLt_bf16_f32) p j).trans ?_
  exact Finset.sum_congr rfl fun k _ => congrArg (· * w2 (ix2 k j)) (h1Block_apply v0 w1 p k)

/-- What the body stores: at (p, q), the network's output q on row p of the tile. -/
theorem body_apply (p : Fin 4096) (q : Fin 3) :
    k0_pay2 (k0_pay3 v0) (shBlock v0) w1 w2 w3 (ix2 p q) = out (fun c => v0 (ix2 p c)) w1 w2 w3 q := by
  unfold out
  refine (Cert.PlainProduct.matmul_zero_apply (M := 4096) (K := 64) (N := 3) none
    (truncf .bf16 (h2Block v0 w1 w2) Facts₀.bitsLt_bf16_f32) (truncf .bf16 w3 Facts₀.bitsLt_bf16_f32) p q).trans ?_
  exact Finset.sum_congr rfl fun k _ => congrArg (· * w3 (ix2 k q)) (h2Block_apply v0 w1 w2 p k)

end Cert.ShMlp.Tile

end
-- ==== Proof.Whole.lean ====
/-
  From tiles to the whole array. Grid point t handles rows 4096 t … 4096 t + 4095: its input block is those rows
  of the input, the three weight windows are the whole weight arrays at every point, and what it writes back is
  those rows of the result. Row p of tile t is row 4096 t + p of the array, so by the tile's value the block written
  back is block t of the specification's array G; the 512 blocks tile the 2097152 rows (row R lies in block
  R / 4096), so after the run the result array is G of the argument arrays.
-/
import proofs.«168292_j81827716923549_1_alg».proof.Proof.Gen.KernelIdeal.Value
import proofs.«168292_j81827716923549_1_alg».proof.Proof.TileRow
import proofs.«168292_j81827716923549_1_alg».proof.Proof.Spec
import Idealize.ShloMosaic.Lib.Pipeline.Value

set_option maxRecDepth 16384

noncomputable section

namespace Cert.ShMlp.Whole

open Cert.KernelIdeal Cert.KernelIdeal.Gen Idealize.ShloMosaic Idealize.ShloMosaic.TcCoe Idealize.SL.Sem
open Idealize.ShloMosaic.ValueIdx
open Idealize.ShloMosaic.Pipeline (Dat)
open Cert.ShMlp

variable (m : (ℓ : Loc nD τ sig) → Buf (Elt Ideal) ℓ) (ρ : Dev nD → PrngReg)

theorem hz : (![0, 0] : Fin 2 → Nat) = fun _ => 0 := funext fun a => by fin_cases a <;> rfl

/-- The printed index maps over the 512 grid points: the input rows and the output rows are at block t, every
    weight window at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row p of tile t as a row of the array. -/
def row (t : Fin cfg0.N) (p : Fin 4096) : Fin 2097152 :=
  ⟨t.val * 4096 + p.val, by have ht : t.val < 512 := t.isLt; have := p.isLt; omega⟩

/-- The input block at point t, at (p, k): the input at (4096 t + p, k). -/
theorem in0 (c : Dev nD) (t : Fin cfg0.N) (p : Fin 4096) (k : Fin 19) :
    iblk m c 0 t (ix2 p k) = V m c main_arg0 (ix2 (row t p) k) := by
  obtain ⟨e0, e1, -⟩ := idx_facts t
  show V m c main_arg0 (((cfg0.win 0).blk t).view.emb (ix2 p k)) = V m c main_arg0 (ix2 (row t p) k)
  refine congrArg _ (funext fun a => Fin.ext ?_)
  match a with
  | ⟨0, _⟩ => show win0_0.index t (0 : Fin 2) * 4096 + 1 * p.val = t.val * 4096 + p.val; omega
  | ⟨1, _⟩ => show win0_0.index t (1 : Fin 2) * 19 + 1 * k.val = k.val; omega

/-- The first weight window's block at any point is the whole array. -/
theorem in1 (c : Dev nD) (t : Fin cfg0.N) : iblk m c 1 t = V m c main_arg1 := by
  obtain ⟨-, -, e0, e1, -⟩ := idx_facts t
  funext y
  show V m c main_arg1 (((cfg0.win 1).blk t).view.emb y) = V m c main_arg1 y
  refine congrArg _ (funext fun a => Fin.ext ?_)
  match a with
  | ⟨0, _⟩ => show win0_1.index t (0 : Fin 2) * 32 + 1 * (y 0).val = (y 0).val; omega
  | ⟨1, _⟩ => show win0_1.index t (1 : Fin 2) * 64 + 1 * (y 1).val = (y 1).val; omega

/-- The second weight window's block at any point is the whole array. -/
theorem in2 (c : Dev nD) (t : Fin cfg0.N) : iblk m c 2 t = V m c main_arg2 := by
  obtain ⟨-, -, -, -, e0, e1, -⟩ := idx_facts t
  funext y
  show V m c main_arg2 (((cfg0.win 2).blk t).view.emb y) = V m c main_arg2 y
  refine congrArg _ (funext fun a => Fin.ext ?_)
  match a with
  | ⟨0, _⟩ => show win0_2.index t (0 : Fin 2) * 64 + 1 * (y 0).val = (y 0).val; omega
  | ⟨1, _⟩ => show win0_2.index t (1 : Fin 2) * 64 + 1 * (y 1).val = (y 1).val; omega

/-- The third weight window's block at any point is the whole array. -/
theorem in3 (c : Dev nD) (t : Fin cfg0.N) : iblk m c 3 t = V m c main_arg3 := by
  obtain ⟨-, -, -, -, -, -, e0, e1, -⟩ := idx_facts t
  funext y
  show V m c main_arg3 (((cfg0.win 3).blk t).view.emb y) = V m c main_arg3 y
  refine congrArg _ (funext fun a => Fin.ext ?_)
  match a with
  | ⟨0, _⟩ => show win0_3.index t (0 : Fin 2) * 64 + 1 * (y 0).val = (y 0).val; omega
  | ⟨1, _⟩ => show win0_3.index t (1 : Fin 2) * 3 + 1 * (y 1).val = (y 1).val; omega

/-- Entry (p, q) of the output block at point t is entry (4096 t + p, q) of the array. -/
theorem emb4 (t : Fin cfg0.N) (p : Fin 4096) (q : Fin 3) :
    ((cfg0.win 4).blk t).view.emb (ix2 p q) = ix2 (row t p) q := by
  obtain ⟨-, -, -, -, -, -, -, -, e0, e1⟩ := idx_facts t
  funext a
  apply Fin.ext
  match a with
  | ⟨0, _⟩ => show win0_4.index t (0 : Fin 2) * 4096 + 1 * p.val = t.val * 4096 + p.val; omega
  | ⟨1, _⟩ => show win0_4.index t (1 : Fin 2) * 3 + 1 * q.val = q.val; omega

/-- WHAT POINT t WRITES BACK is block t of G of the argument arrays. -/
theorem flushed_eq (c : Dev nD) (t : Fin cfg0.N) :
    (dats m 0 c).flushed 4 t = ((cfg0.win 4).blk t).view.read (Elt Ideal)
      (G (V m c main_arg0) (V m c main_arg1) (V m c main_arg2) (V m c main_arg3)) := by
  rw [Cert.KernelIdeal.Value.flushed4]
  unfold out0_4
  rw [View.canon_unit_zero hz]
  simp only [View.ld_unit_zero (S := S4096x19) hz, View.ld_unit_zero (S := S32x64) hz, View.ld_unit_zero (S := S64x64) hz,
    View.ld_unit_zero (S := S64x3) hz]
  funext j
  obtain ⟨p, q, rfl⟩ : ∃ (p : Fin 4096) (q : Fin 3), j = ix2 p q := ⟨j 0, j 1, eq_ix2 j⟩
  show k0_pay2 (k0_pay3 (iblk m c 0 t)) (Cert.ShMlp.Tile.shBlock (iblk m c 0 t)) (iblk m c 1 t) (iblk m c 2 t) (iblk m c 3 t) (ix2 p q)
    = G (V m c main_arg0) (V m c main_arg1) (V m c main_arg2) (V m c main_arg3) (((cfg0.win 4).blk t).view.emb (ix2 p q))
  refine (Cert.ShMlp.Tile.body_apply (iblk m c 0 t) (iblk m c 1 t) (iblk m c 2 t) (iblk m c 3 t) p q).trans ?_
  rw [emb4, in1, in2, in3, show (fun k => iblk m c 0 t (ix2 p k)) = fun k => V m c main_arg0 (ix2 (row t p) k) from
    funext fun k => in0 m c t p k]
  rfl

/-- An index of the array is in point t's block iff each coordinate is in the block's range on its axis. -/
theorem mem_blk (t : Fin cfg0.N) (i : S2097152x3.Idx) :
    i ∈ ((cfg0.win 4).blk t).view.set ↔ ∀ a : Fin 2, win0_4.index t a * S4096x3.size a ≤ (i a).val ∧ (i a).val < win0_4.index t a * S4096x3.size a + S4096x3.size a := by
  show i ∈ ((View.whole main_v0).slice (win0_4.rect t)).set ↔ _
  rw [View.set_slice_whole, Rect.mem_set_unit]
  exact Iff.rfl

/-- Every entry of the result array lies in some point's block: row R in block R / 4096. -/
theorem cover (i : S2097152x3.Idx) : ∃ t : Fin cfg0.N, (cfg0.win 4).flush t = true ∧ i ∈ ((cfg0.win 4).blk t).view.set := by
  have hi0 : (i 0).val < 2097152 := (i 0).isLt
  have hi1 : (i 1).val < 3 := (i 1).isLt
  let t : Fin cfg0.N := ⟨(i 0).val / 4096, by show (i 0).val / 4096 < 512; omega⟩
  have ht : t.val = (i 0).val / 4096 := rfl
  obtain ⟨-, -, -, -, -, -, -, -, e0, e1⟩ := idx_facts t
  refine ⟨t, flush0_4 t, ?_⟩
  rw [mem_blk]
  intro a
  match a with
  | ⟨0, _⟩ => show win0_4.index t (0 : Fin 2) * 4096 ≤ (i 0).val ∧ (i 0).val < win0_4.index t (0 : Fin 2) * 4096 + 4096; omega
  | ⟨1, _⟩ => show win0_4.index t (1 : Fin 2) * 3 ≤ (i 1).val ∧ (i 1).val < win0_4.index t (1 : Fin 2) * 3 + 3; omega

/-- THE RESULT ARRAY after the run is G of the argument arrays. -/
theorem final (c : Dev nD) : (dats m 0 c).arrAt 4 cfg0.N
    = G (m ((c : Thread nD τ).loc main_arg0)) (m ((c : Thread nD τ).loc main_arg1)) (m ((c : Thread nD τ).loc main_arg2)) (m ((c : Thread nD τ).loc main_arg3)) :=
  (dats m 0 c).arrAt_eq_of_cover 4 (G (V m c main_arg0) (V m c main_arg1) (V m c main_arg2) (V m c main_arg3))
    (fun t _ => flushed_eq m c t) cover

/-- The kernel's run, read: the result array at G of the arguments, the arguments unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.ShMlp.Whole

end
-- ==== Proof.RefRow.lean ====
/-
  The reference, read at an entry. It runs the same steps as a tile of the kernel on all 2097152 rows at once:
  the three moved coordinates as flattened one-wide columns, sixteen harmonic vectors broadcast to columns and laid
  side by side, the feature array as that block beside the input's last sixteen columns, and three host products,
  each the plain sum over the contracted coordinate, with max (·, 0) after the first two. So its result at (r, q)
  is the network's output q on row r, and the whole result is the array G of the specification.
-/
import proofs.«168292_j81827716923549_1_alg».proof.Proof.Gen.ReferenceIdeal.Read
import proofs.«168292_j81827716923549_1_alg».proof.Proof.Spec
import proofs.«168292_j81827716923549_1_alg».proof.Proof.RowLayout
import proofs.«168292_j81827716923549_1_alg».proof.Proof.LibPlainProduct
import Idealize.ShloMosaic.Lib.Pipeline.Value
import Idealize.ShloMosaic.Lib.ValueIdx

noncomputable section

namespace Cert.ShMlp.Ref

open Cert.ReferenceIdeal Cert.ReferenceIdeal.Gen Cert.ReferenceIdeal.Read Idealize.ShloMosaic Idealize.ShloMosaic.TcCoe
open Idealize.ShloMosaic.ValueIdx Cert.ShMlp Cert.ShMlp.Rows
open scoped BigOperators

variable (x0 : (⟨S2097152x19, .f32⟩ : BufTy).Contents (Elt Ideal)) (x1 : (⟨S32x64, .f32⟩ : BufTy).Contents (Elt Ideal)) (x2 : (⟨S64x64, .f32⟩ : BufTy).Contents (Elt Ideal)) (x3 : (⟨S64x3, .f32⟩ : BufTy).Contents (Elt Ideal))

/-- Row r's first coordinate, moved. -/
theorem compX (r : Fin 2097152) : val_main_v6 x0 (ix1 r) = comp (x0 (ix2 r 0)) := by
  unfold val_main_v6 val_main_v5
  refine (col_apply (val_main_v4 x0) 0 (by decide) _ _ r).trans ?_
  unfold val_main_v4 val_main_v2 val_main_v0
  exact congrArg (fun t => t * lit 0x40000000#32 - lit 0x3F800000#32) (head3_apply x0 _ r 0)

/-- Row r's second coordinate, moved. -/
theorem compY (r : Fin 2097152) : val_main_v8 x0 (ix1 r) = comp (x0 (ix2 r 1)) := by
  unfold val_main_v8 val_main_v7
  refine (col_apply (val_main_v4 x0) 1 (by decide) _ _ r).trans ?_
  unfold val_main_v4 val_main_v2 val_main_v0
  exact congrArg (fun t => t * lit 0x40000000#32 - lit 0x3F800000#32) (head3_apply x0 _ r 1)

/-- Row r's third coordinate, moved. -/
theorem compZ (r : Fin 2097152) : val_main_v10 x0 (ix1 r) = comp (x0 (ix2 r 2)) := by
  unfold val_main_v10 val_main_v9
  refine (col_apply (val_main_v4 x0) 2 (by decide) _ _ r).trans ?_
  unfold val_main_v4 val_main_v2 val_main_v0
  exact congrArg (fun t => t * lit 0x40000000#32 - lit 0x3F800000#32) (head3_apply x0 _ r 2)

/-- Every harmonic vector is a pointwise polynomial of the three moved-coordinate vectors, so the sixteen columns
    side by side hold, at (r, j), harmonic j of row r's direction. -/
theorem shBlock_apply (r : Fin 2097152) (j : Fin 16) :
    val_main_v93 x0 (ix2 r j) = sh (val_main_v6 x0 (ix1 r)) (val_main_v8 x0 (ix1 r)) (val_main_v10 x0 (ix1 r)) j := by
  unfold val_main_v93
  exact bcastCols16_apply (fun n i => sh (val_main_v6 x0 i) (val_main_v8 x0 i) (val_main_v10 x0 i) n)
    Facts₀.bcast_S2097152_S2097152x1_0 Facts₀.concatenates_S2097152x1_S2097152x1_S2097152x1_S2097152x1_S2097152x1_S2097152x1_S2097152x1_S2097152x1_S2097152x1_S2097152x1_S2097152x1_S2097152x1_S2097152x1_S2097152x1_S2097152x1_S2097152x1_S2097152x16_d1 r j

/-- The thirty-two features: the harmonic block, then the input's columns 3 … 18. -/
theorem feat_apply (r : Fin 2097152) (k : Fin 32) :
    val_main_v95 x0 (ix2 r k) = enc (fun c => x0 (ix2 r c)) k := by
  unfold enc val_main_v95
  refine (halves_apply (val_main_v93 x0) (val_main_v94 x0) Facts₀.concatenates_S2097152x16_S2097152x16_S2097152x32_d1 r k).trans ?_
  by_cases h : k.val < 16
  · rw [dif_pos h, dif_pos h, shBlock_apply, compX, compY, compZ]
  · rw [dif_neg h, dif_neg h]
    unfold val_main_v94
    exact tail16_apply x0 _ r ⟨k.val - 16, by have := k.isLt; omega⟩

/-- The first hidden layer. -/
theorem h1_apply (r : Fin 2097152) (j : Fin 64) :
    val_main_v97 x0 x1 (ix2 r j) = hid1 (fun c => x0 (ix2 r c)) x1 j := by
  unfold hid1 val_main_v97
  refine (maximumf_apply _ _ _).trans (congrArg₂ max ?_ rfl)
  unfold val_main_v96
  refine (Cert.PlainProduct.dotGeneral_apply (M := 2097152) (K := 32) (N := 64) none (val_main_v95 x0) x1 r j).trans ?_
  exact Finset.sum_congr rfl fun k _ => congrArg (· * x1 (ix2 k j)) (feat_apply x0 r k)

/-- The second hidden layer. -/
theorem h2_apply (r : Fin 2097152) (j : Fin 64) :
    val_main_v99 x0 x1 x2 (ix2 r j) = hid2 (fun c => x0 (ix2 r c)) x1 x2 j := by
  unfold hid2 val_main_v99
  refine (maximumf_apply _ _ _).trans (congrArg₂ max ?_ rfl)
  unfold val_main_v98
  refine (Cert.PlainProduct.dotGeneral_apply (M := 2097152) (K := 64) (N := 64) none (val_main_v97 x0 x1) x2 r j).trans ?_
  exact Finset.sum_congr rfl fun k _ => congrArg (· * x2 (ix2 k j)) (h1_apply x0 x1 r k)

/-- The reference's result at (r, q): the network's output q on row r. -/
theorem ref_apply (r : Fin 2097152) (q : Fin 3) :
    val_main_v100 x0 x1 x2 x3 (ix2 r q) = out (fun c => x0 (ix2 r c)) x1 x2 x3 q := by
  unfold out val_main_v100
  refine (Cert.PlainProduct.dotGeneral_apply (M := 2097152) (K := 64) (N := 3) none (val_main_v99 x0 x1 x2) x3 r q).trans ?_
  exact Finset.sum_congr rfl fun k _ => congrArg (· * x3 (ix2 k q)) (h2_apply x0 x1 x2 r k)

/-- The reference's result is the specification's array. -/
theorem ref_eq : val_main_v100 x0 x1 x2 x3 = G x0 x1 x2 x3 := by
  funext i
  obtain ⟨r, q, rfl⟩ : ∃ (r : Fin 2097152) (q : Fin 3), i = ix2 r q := ⟨i 0, i 1, eq_ix2 i⟩
  exact ref_apply x0 x1 x2 x3 r q

end Cert.ShMlp.Ref

end
-- ==== Proof.lean ====
/-
  The kernel evaluates, on each of 512 tiles of 4096 rows, a small network: the sixteen real spherical harmonics of
  degree below four of the direction 2 d − 1 given by a row's first three entries, laid beside the row's other
  sixteen entries, then three bias-free dense layers 32 → 64 → 64 → 3 with max (·, 0) after the first two. The
  reference evaluates the same network on all 2097152 rows at once. Over the extended reals a change of float
  format is the identity and a product into a zero accumulator is the plain sum over the contracted coordinate, and
  every harmonic is spelled with the same literals and the same association of its products on both sides; so both
  programs hold, at (r, q), the network's output q on row r (the array G of Proof/Spec.lean): the kernel because
  the block a grid point writes back is its tile's rows of G and the blocks tile the array (Proof/TileRow.lean,
  Proof/Whole.lean), the reference stage by stage (Proof/RefRow.lean). No law beyond 0 + s = s is used, so the
  precondition is never opened. The idealization rewrote nothing, so there is nothing to preserve.
-/
import proofs.«168292_j81827716923549_1_alg».proof.Defs
import proofs.«168292_j81827716923549_1_alg».proof.Proof.Gen.Kernel
import proofs.«168292_j81827716923549_1_alg».proof.Proof.Gen.Kernel.Skeleton
import proofs.«168292_j81827716923549_1_alg».proof.Proof.Gen.Kernel.Launch
import proofs.«168292_j81827716923549_1_alg».proof.Proof.Gen.Kernel.Points
import proofs.«168292_j81827716923549_1_alg».proof.Proof.Gen.Kernel.Frame
import proofs.«168292_j81827716923549_1_alg».proof.Proof.Gen.KernelIdeal
import proofs.«168292_j81827716923549_1_alg».proof.Proof.Gen.KernelIdeal.Skeleton
import proofs.«168292_j81827716923549_1_alg».proof.Proof.Gen.KernelIdeal.Launch
import proofs.«168292_j81827716923549_1_alg».proof.Proof.Gen.KernelIdeal.Points
import proofs.«168292_j81827716923549_1_alg».proof.Proof.Gen.KernelIdeal.Frame
import proofs.«168292_j81827716923549_1_alg».proof.Proof.Gen.ReferenceIdeal
import proofs.«168292_j81827716923549_1_alg».proof.Proof.Gen.Pre_finite_inputs
import proofs.«168292_j81827716923549_1_alg».proof.Proof.Gen.KernelIdeal.Value
import proofs.«168292_j81827716923549_1_alg».proof.Proof.Gen.ReferenceIdeal.Run
import proofs.«168292_j81827716923549_1_alg».proof.Proof.Gen.ReferenceIdeal.Read
import proofs.«168292_j81827716923549_1_alg».proof.Proof.Whole
import proofs.«168292_j81827716923549_1_alg».proof.Proof.RefRow
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization applied no rewrite. -/
theorem preserves : Cert.preserves_Kernel_KernelIdeal := trivial

/-- Both runs end with the result array at G of the arguments, which agree. -/
theorem algebraic : Cert.algebraic_KernelIdeal_ReferenceIdeal := by
  intro m ρ m' ρ' _ hagree
  refine ⟨fun c => Cert.ShMlp.G (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.ShMlp.Whole.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v100_eq, Cert.ShMlp.Ref.ref_eq, (hagree c).1, (hagree c).2.1,
    (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
